-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x4096 : Shape := ⟨3, ![16, 4096, 4096]⟩
abbrev S4096 : Shape := ⟨1, ![4096]⟩
abbrev S_ : Shape := ⟨0, ![]⟩

class Facts : Prop where
  bcast_S_S16x4096x4096 : S_.BroadcastsInDim S16x4096x4096 (![] : Fin 0 → Fin S16x4096x4096.rank)
  reducesTo_S16x4096x4096_S_d0_1_2 : S16x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16x4096x4096 .f32) (main_arg1 : FVec F S4096 .f32) : IVec S_ 1 :=
  let main_v0 : FVec F S16x4096x4096 .f32 := Host.absf main_arg0
  let main_cst : FVec F S_ .f32 := constant S_ .f32 0x7F800000#32
  let main_v1 : FVec F S16x4096x4096 .f32 := broadcastInDim S16x4096x4096 ![] bcast_S_S16x4096x4096 main_cst
  let main_v2 : IVec S16x4096x4096 1 := cmpf .olt main_v0 main_v1
  let main_c : IVec S_ 1 := constantI S_ 1 1#1
  let main_v3 : IVec S_ 1 := (fun x v => Host.reduce IntOp.andi x v reducesTo_S16x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16x4096x4096 : Shape := ⟨3, ![16, 4096, 4096]⟩
abbrev S4096 : Shape := ⟨1, ![4096]⟩
abbrev S65536x4096 : Shape := ⟨2, ![65536, 4096]⟩
abbrev S512x4096 : Shape := ⟨2, ![512, 4096]⟩
abbrev S1x4096 : Shape := ⟨2, ![1, 4096]⟩

abbrev nBuf : Space → Nat
  | .hbm => 5
  | .vmem => 5
  | .smem => 0
  | _ => 0

abbrev bufTy : (tb : Table) → Fin (tcTables nBuf tb) → BufTy
  | .hbm, ⟨0, _⟩ => ⟨S16x4096x4096, .f32⟩
  | .hbm, ⟨1, _⟩ => ⟨S4096, .f32⟩
  | .hbm, ⟨2, _⟩ => ⟨S65536x4096, .f32⟩
  | .hbm, ⟨3, _⟩ => ⟨S65536x4096, .f32⟩
  | .hbm, ⟨4, _⟩ => ⟨S16x4096x4096, .f32⟩
  | .local _ .vmem, ⟨0, _⟩ => ⟨S512x4096, .f32⟩
  | .local _ .vmem, ⟨1, _⟩ => ⟨S512x4096, .f32⟩
  | .local _ .vmem, ⟨2, _⟩ => ⟨S4096, .f32⟩
  | .local _ .vmem, ⟨3, _⟩ => ⟨S512x4096, .f32⟩
  | .local _ .vmem, ⟨4, _⟩ => ⟨S512x4096, .f32⟩
  | _, _ => ⟨S16x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4096x4096_S65536x4096 : S16x4096x4096.ShapeCasts S65536x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S65536x4096_S16x4096x4096 : S65536x4096.ShapeCasts S16x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S65536x4096.size a
  hwx0_0 : ∀ i : grid0.Coords, EltTy.bits .f32 = 32 ∨ (Rect.block (s := S65536x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S65536x4096.size a
  hwx0_2 : ∀ i : grid0.Coords, EltTy.bits .f32 = 32 ∨ (Rect.block (s := S65536x4096) S512x4096.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x4096 : Shape := ⟨3, ![16, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16x4096x4096, .f32⟩
  | .hbm, ⟨1, _⟩ => ⟨S4096, .f32⟩
  | .hbm, ⟨2, _⟩ => ⟨S1x1x4096, .f32⟩
  | .hbm, ⟨3, _⟩ => ⟨S16x4096x4096, .f32⟩
  | .hbm, ⟨4, _⟩ => ⟨S16x4096x4096, .f32⟩
  | _, _ => ⟨S16x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S16x4096x4096_0_1_2 : S1x1x4096.BroadcastsInDim S16x4096x4096 (![0, 1, 2] : Fin 3 → Fin S16x4096x4096.rank)

variable [Facts₀]

class Facts : Prop extends Facts₀ where

variable [Facts]
-- ==== Proof.ScaleSpec.lean ====
/-
  The mathematics of the certificate, free of any program: a rank-3 array scaled along its last axis by a vector,
  and the same thing done on the array flattened to rows.

  For x : [16, 4096, 4096] and w : [4096] the result is  out[b, s, d] = x[b, s, d] * w[d].  Flattening the two leading
  axes into one row axis r = b * 4096 + s keeps the last coordinate, so scaling row r entrywise by w and then folding
  the rows back gives the same array: the row-major position of (b, s, d) in the cube and of (r, d) in the matrix are
  both (b * 4096 + s) * 4096 + d. Nothing but the definition of a product is used; no law of the extended reals that
  could fail at an infinity enters.
-/
import Idealize.ShloMosaic.PureOps.Ideal
import Idealize.ShloMosaic.Lib.ValueIdx
import Idealize.ShloMosaic.Lib.Pipeline.Value

noncomputable section

namespace Cert.ScaleLast

open Idealize.ShloMosaic Idealize.ShloMosaic.ValueIdx

/-- The cube [16, 4096, 4096], its flattening to rows [65536, 4096], and the scale vector's shape [4096]. -/
abbrev Cube : Shape := ⟨3, ![16, 4096, 4096]⟩
abbrev Rows : Shape := ⟨2, ![65536, 4096]⟩
abbrev Lane : Shape := ⟨1, ![4096]⟩

/-- The cube scaled along its last axis: entry (b, s, d) is x[b, s, d] * w[d]. -/
def scaleCube (x : FVec Ideal Cube .f32) (w : FVec Ideal Lane .f32) : FVec Ideal Cube .f32 :=
  fun i => x i * w (ix1 (i 2))

/-- The matrix of rows scaled along its columns: entry (r, d) is X[r, d] * w[d]. -/
def scaleRows (X : FVec Ideal Rows .f32) (w : FVec Ideal Lane .f32) : FVec Ideal Rows .f32 :=
  fun j => X j * w (ix1 (j 1))

/-- The row of the flattened matrix that holds entry (b, s, ·) of the cube: r = b * 4096 + s, same last coordinate. -/
def rowOf (i : Cube.Idx) : Rows.Idx :=
  ix2 (⟨(i 0).val * 4096 + (i 1).val, by
    have h0 : (i 0).val < 16 := (i 0).isLt
    have h1 : (i 1).val < 4096 := (i 1).isLt
    omega⟩ : Fin 65536) (⟨(i 2).val, (i 2).isLt⟩ : Fin 4096)

/-- Both indices sit at the same row-major position. -/
theorem rowOf_rowMajor (i : Cube.Idx) : (Rows.rowMajor (rowOf i)).val = (Cube.rowMajor i).val := by
  rw [Shape.rowMajor_val_two, Shape.rowMajor_val_three]
  rfl

/-- Flatten, scale the rows, fold back: the cube scaled along its last axis. -/
theorem fold_scaleRows_flatten (x : FVec Ideal Cube .f32) (w : FVec Ideal Lane .f32)
    (hflat : Cube.ShapeCasts Rows) (hfold : Rows.ShapeCasts Cube) :
    shapeCast Cube (scaleRows (shapeCast Rows x hflat) w) hfold = scaleCube x w := by
  funext i
  rw [shapeCast_apply _ hfold i (rowOf i) (rowOf_rowMajor i)]
  unfold scaleRows scaleCube
  rw [shapeCast_apply x hflat (rowOf i) i (rowOf_rowMajor i).symm]
  rfl

end Cert.ScaleLast

end
-- ==== Proof.RefScale.lean ====
/-
  The reference at the ideal instance, entry by entry: the scale vector is broadcast first to [1, 1, 4096] and then to the
  cube [16, 4096, 4096], each broadcast keeping the last coordinate, and multiplied into x. So entry (b, s, d) of the
  result is x[b, s, d] * w[d]: the cube scaled along its last axis.
-/
import proofs.«170186_j1580547973848_1_alg».proof.Proof.Gen.ReferenceIdeal.Read
import proofs.«170186_j1580547973848_1_alg».proof.Proof.ScaleSpec

noncomputable section

namespace Cert.ReferenceIdeal.ScaleValue

open Cert.ReferenceIdeal Cert.ReferenceIdeal.Read Idealize.ShloMosaic Idealize.ShloMosaic.ValueIdx Cert.ScaleLast

/-- The two broadcasts composed read the vector at the cube index's last coordinate. -/
theorem bcast_index (i : S16x4096x4096.Idx) : idx_main_v0 (idx_main_v1 i) = ix1 (i 2) :=
  funext fun a => match a with | ⟨0, _⟩ => rfl

/-- The reference's result is the cube scaled along its last axis. -/
theorem result_eq (x : (⟨S16x4096x4096, .f32⟩ : BufTy).Contents (Elt Ideal)) (w : (⟨S4096, .f32⟩ : BufTy).Contents (Elt Ideal)) :
    val_main_v2 (F := Ideal) x w = scaleCube x w := by
  funext i
  rw [val_main_v2_apply, val_main_v1_apply, val_main_v0_apply, bcast_index]
  rfl

end Cert.ReferenceIdeal.ScaleValue

end
-- ==== Proof.KernelRows.lean ====
/-
  What the kernel leaves in the flattened result array, at the ideal instance.

  The call sees x flattened to a matrix of 65536 rows and writes a matrix of the same shape, 512 rows at a grid point:
  point t loads rows 512 t … 512 t + 511 of the matrix and the whole scale vector, lays the vector out as one row, repeats
  that row down the block and multiplies entrywise. Entry (p, q) of the block is therefore X[512 t + p, q] * w[q], which is
  block t of ONE function of the whole matrix — its rows scaled along the columns —, and the 128 blocks tile the matrix,
  so the array ends holding that function.
-/
import proofs.«170186_j1580547973848_1_alg».proof.Proof.Gen.KernelIdeal.Frame
import proofs.«170186_j1580547973848_1_alg».proof.Proof.ScaleSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.RowsValue

open Cert.KernelIdeal Cert.KernelIdeal.Gen Idealize.ShloMosaic Idealize.ShloMosaic.TcCoe Idealize.SL.Sem
open Idealize.ShloMosaic.ValueIdx Idealize.ShloMosaic.StableHlo Cert.ScaleLast
open Idealize.ShloMosaic.Pipeline (Dat Cfg Window)

variable (m : (ℓ : Loc nD τ sig) → Buf (Elt Ideal) ℓ) (ρ : Dev nD → PrngReg)

theorem zero1 : (![0] : Fin 1 → Nat) = fun _ => 0 := funext fun a => by fin_cases a <;> rfl
theorem zero2 : (![0, 0] : Fin 2 → Nat) = fun _ => 0 := funext fun a => by fin_cases a <;> rfl

/-- The body's product at entry (p, q) of the block: the loaded block's entry times the scale vector's entry q. -/
theorem pay_apply (w : Vec Ideal S4096 .f32) (X : Vec Ideal S512x4096 .f32) (j : S512x4096.Idx) :
    k0_pay1 w X j = X j * w (ix1 (j 1)) := by
  obtain ⟨p, q, rfl⟩ : ∃ (p : Fin 512) (q : Fin 4096), j = ix2 p q := ⟨j 0, j 1, eq_ix2 j⟩
  unfold k0_pay1
  rw [mulf_apply, shapeCast_self, broadcastTo_1b_ab_apply, shapeCast_a_1a_apply]

/-- A block entry against the whole matrix: if the loaded block's entry (p, q) is the matrix's entry i and the loaded
    vector's entry q is the scale vector's entry at i's column, the body's product there is the scaled matrix at i. -/
theorem pay_scaleRows (X : FVec Ideal Rows .f32) (w : FVec Ideal Lane .f32) (xb : Vec Ideal S512x4096 .f32)
    (wb : Vec Ideal S4096 .f32) (j : S512x4096.Idx) (i : Rows.Idx) (hx : xb j = X i)
    (hw : wb (ix1 (j 1)) = w (ix1 (i 1))) : k0_pay1 wb xb j = scaleRows X w i := by
  rw [pay_apply, hx, hw]
  rfl

/-- The matrix of rows and the scale vector as the call finds them, at their literal shapes. -/
abbrev rowsIn (c : Dev nD) : FVec Ideal Rows .f32 := V m c main_v0
abbrev scaleVec (c : Dev nD) : FVec Ideal Lane .f32 := V m c main_arg1

/-- The matrix the call reads: x flattened, entry for entry at the same row-major position. -/
theorem entry_rows (c : Dev nD) :
    (V m c main_v0 : S65536x4096.Idx → Elt Ideal .f32)
      = shapeCast S65536x4096 (m ((c : Thread nD τ).loc main_arg0)) shapeCasts_S16x4096x4096_S65536x4096 := by
  show StableHlo.after hostOps0 (fun b => m (c, b)) (Proc.devRef .tc main_v0) = _
  after_results
  rfl

/-- The printed block index maps over the 128 grid points: the input and output row blocks move together, block t at
    point t, and neither they nor the scale vector's window move along the columns. -/
theorem idx_facts : ∀ t : Fin cfg0.N, win0_0.index t (0 : Fin 2) = win0_2.index t (0 : Fin 2)
    ∧ win0_0.index t (1 : Fin 2) = 0
    ∧ win0_2.index t (1 : Fin 2) = 0
    ∧ win0_1.index t (0 : Fin 1) = 0
    ∧ win0_2.index t (0 : Fin 2) = t.val :=
  (by decide +kernel : ∀ t : Fin grid0.N, _)

/-- WHAT POINT t WRITES BACK is block t of the matrix scaled along its columns. -/
theorem flushed_eq (c : Dev nD) (t : Fin cfg0.N) :
    (dats m 0 c).flushed 2 t
      = ((cfg0.win 2).blk t).view.read (Elt Ideal) (scaleRows (rowsIn m c) (scaleVec m c)) := by
  show (cfg0.win 2).cut (grid0.coords t) ((dats m 0 c).after 2 t) = _
  rw [after0_2]
  unfold out0_2
  rw [View.canon_unit_zero zero2]
  simp only [View.ld_unit_zero (S := S512x4096) zero2, View.ld_unit_zero (S := S4096) zero1]
  obtain ⟨e0, e1, e2, e3, e4⟩ := idx_facts t
  funext j
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb (ix1 (j 1)) = ix1 ((((cfg0.win 2).blk t).view.emb j) 1) := by
    funext a; apply Fin.ext
    match a with
    | ⟨0, _⟩ => show win0_1.index t (0 : Fin 1) * 4096 + 1 * (j 1).val = win0_2.index t (1 : Fin 2) * 4096 + 1 * (j 1).val; omega
  refine pay_scaleRows (rowsIn m c) (scaleVec m c) (iblk m c 0 t) (iblk m c 1 t) j (((cfg0.win 2).blk t).view.emb j) ?_ ?_
  · show V m c main_v0 (((cfg0.win 0).blk t).view.emb j) = V m c main_v0 (((cfg0.win 2).blk t).view.emb j)
    exact congrArg (V m c main_v0) h0
  · show V m c main_arg1 (((cfg0.win 1).blk t).view.emb (ix1 (j 1))) = V m c main_arg1 (ix1 ((((cfg0.win 2).blk t).view.emb j) 1))
    exact congrArg (V m c main_arg1) h1

/-- An index of the matrix is in point t's block iff each coordinate is in the block's range on its axis. -/
theorem mem_blk (t : Fin cfg0.N) (i : S65536x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v1).slice (win0_2.rect t)).set ↔ _
  rw [View.set_slice_whole, Rect.mem_set_unit]
  exact Iff.rfl

/-- Row r of the matrix lies in the block of point r / 512: the 128 blocks tile the matrix. -/
theorem covered (i : S65536x4096.Idx) :
    ∃ t : Fin cfg0.N, (cfg0.win 2).flush t = true ∧ i ∈ ((cfg0.win 2).blk t).view.set := by
  have hi0 : (i 0).val < 65536 := (i 0).isLt
  have hi1 : (i 1).val < 4096 := (i 1).isLt
  have hN : (i 0).val / 512 < cfg0.N := by show (i 0).val / 512 < grid0.N; rw [N_0]; omega
  obtain ⟨-, -, e2, -, e4⟩ := idx_facts ⟨(i 0).val / 512, hN⟩
  have e4' : win0_2.index ⟨(i 0).val / 512, hN⟩ (0 : Fin 2) = (i 0).val / 512 := e4
  refine ⟨⟨(i 0).val / 512, hN⟩, flush0_2 _, ?_⟩
  rw [mem_blk]
  intro a
  match a with
  | ⟨0, _⟩ =>
    show win0_2.index ⟨(i 0).val / 512, hN⟩ (0 : Fin 2) * 512 ≤ (i 0).val
      ∧ (i 0).val < win0_2.index ⟨(i 0).val / 512, hN⟩ (0 : Fin 2) * 512 + 512
    omega
  | ⟨1, _⟩ =>
    show win0_2.index ⟨(i 0).val / 512, hN⟩ (1 : Fin 2) * 4096 ≤ (i 1).val
      ∧ (i 1).val < win0_2.index ⟨(i 0).val / 512, hN⟩ (1 : Fin 2) * 4096 + 4096
    omega

/-- THE RESULT MATRIX after the call: the matrix it read, scaled along its columns by the scale vector. -/
theorem final (c : Dev nD) : (dats m 0 c).arrAt 2 cfg0.N = scaleRows (rowsIn m c) (scaleVec m c) :=
  (dats m 0 c).arrAt_eq_of_cover 2 (scaleRows (rowsIn m c) (scaleVec m c)) (fun t _ => flushed_eq m c t) covered

/-- The matrix the call reads is x flattened, and the scale vector is w as launched. -/
theorem rowsIn_eq (c : Dev nD) :
    rowsIn m c = shapeCast Rows (m ((c : Thread nD τ).loc main_arg0)) shapeCasts_S16x4096x4096_S65536x4096 := entry_rows m c
theorem scaleVec_eq (c : Dev nD) : scaleVec m c = m ((c : Thread nD τ).loc main_arg1) := V_main_arg1 m c

/-- THE RESULT after the last line of the program, which folds the result matrix back into a cube: x scaled along its
    last axis by w. -/
theorem tail_eq (c : Dev nD) :
    (Pipeline.afterTail₀ cfgs (dats m) 0 (V0 m) [hostOps1] c main_v2 : S16x4096x4096.Idx → Elt Ideal .f32)
      = scaleCube (m ((c : Thread nD τ).loc main_arg0)) (m ((c : Thread nD τ).loc main_arg1)) := by
  unfold Pipeline.afterTail₀
  show StableHlo.after hostOps1 _ (Proc.devRef .tc main_v2) = _
  after_results
  show shapeCast S16x4096x4096 (Pipeline.withArrays spec0 c (V0 m c) (fun w => (dats m 0 c).arrAt w cfg0.N)
    (Proc.devRef .tc (Pipeline.arrRef spec0 2))) shapeCasts_S65536x4096_S16x4096x4096 = _
  rw [Pipeline.withArrays_arr spec0 launch0.win.arr_inj c _ _ 2, final, rowsIn_eq, scaleVec_eq]
  exact fold_scaleRows_flatten _ _ _ _

/-- THE RUN, read: every weakly fair execution of the program ends with its result at x scaled along its last axis by
    w, and both arguments as launched. -/
theorem run : θ_run defs (onTc (τ := τ) (main (F := Ideal))) ⟨m, fun _ => 0, ρ⟩ fun r => ∀ c : Dev nD,
      r.2.mem ((c.tc : Thread nD τ).loc main_v2)
        = scaleCube (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.RowsValue

end
-- ==== Proof.lean ====
/-
  The certificate of a broadcast multiply: x : [16, 4096, 4096] scaled along its last axis by w : [4096].

  The kernel flattens x to 65536 rows, multiplies 512 rows at a time by w laid out as a row and repeated down the block,
  and folds the rows back into the cube; the reference broadcasts w to the cube and multiplies. At the ideal instance
  both end with out[b, s, d] = x[b, s, d] * w[d] on the extended reals: flattening and folding keep every entry's
  row-major position, so the last coordinate d is the column of the flattened matrix, and the two sides are the same
  single product entry by entry. No algebraic law beyond that is needed, so the finiteness of the inputs is never used.

  The three frames: the two kernel programs run by their generated frame certificates, the reference by its generated
  run with the result dropped. The idealization rewrote nothing, so there is nothing to preserve. The value claim pairs
  the kernel's run, read back to the scaled cube, with the reference's run, whose term is the same scaled cube.
-/
import proofs.«170186_j1580547973848_1_alg».proof.Defs
import proofs.«170186_j1580547973848_1_alg».proof.Proof.Gen.Kernel
import proofs.«170186_j1580547973848_1_alg».proof.Proof.Gen.Kernel.Skeleton
import proofs.«170186_j1580547973848_1_alg».proof.Proof.Gen.Kernel.Launch
import proofs.«170186_j1580547973848_1_alg».proof.Proof.Gen.Kernel.Points
import proofs.«170186_j1580547973848_1_alg».proof.Proof.Gen.Kernel.Frame
import proofs.«170186_j1580547973848_1_alg».proof.Proof.Gen.KernelIdeal
import proofs.«170186_j1580547973848_1_alg».proof.Proof.Gen.KernelIdeal.Skeleton
import proofs.«170186_j1580547973848_1_alg».proof.Proof.Gen.KernelIdeal.Launch
import proofs.«170186_j1580547973848_1_alg».proof.Proof.Gen.KernelIdeal.Points
import proofs.«170186_j1580547973848_1_alg».proof.Proof.Gen.KernelIdeal.Frame
import proofs.«170186_j1580547973848_1_alg».proof.Proof.Gen.ReferenceIdeal
import proofs.«170186_j1580547973848_1_alg».proof.Proof.Gen.Pre_finite_inputs
import proofs.«170186_j1580547973848_1_alg».proof.Proof.Gen.ReferenceIdeal.Run
import proofs.«170186_j1580547973848_1_alg».proof.Proof.Gen.ReferenceIdeal.Read
import proofs.«170186_j1580547973848_1_alg».proof.Proof.ScaleSpec
import proofs.«170186_j1580547973848_1_alg».proof.Proof.RefScale
import proofs.«170186_j1580547973848_1_alg».proof.Proof.KernelRows
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the cube scaled along its last axis, of arguments that agree. -/
theorem algebraic : Cert.algebraic_KernelIdeal_ReferenceIdeal := by
  intro m ρ m' ρ' _ hagree
  refine ⟨_, Cert.KernelIdeal.RowsValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.ScaleValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
